-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S2304x768 : Shape := ⟨2, ![2304, 768]⟩
abbrev S2304x12 : Shape := ⟨2, ![2304, 12]⟩
abbrev S16x768 : Shape := ⟨2, ![16, 768]⟩
abbrev S2304x16 : Shape := ⟨2, ![2304, 16]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S2304x12 : S_.BroadcastsInDim S2304x12 (![] : Fin 0 → Fin S2304x12.rank)
  reducesTo_S2304x12_S_d0_1 : S2304x12.ReducesTo [0, 1] S_
  bcast_S_S16x768 : S_.BroadcastsInDim S16x768 (![] : Fin 0 → Fin S16x768.rank)
  reducesTo_S16x768_S_d0_1 : S16x768.ReducesTo [0, 1] S_
  bcast_S_S2304x16 : S_.BroadcastsInDim S2304x16 (![] : Fin 0 → Fin S2304x16.rank)
  reducesTo_S2304x16_S_d0_1 : S2304x16.ReducesTo [0, 1] S_

variable [Facts]

def fn_part1 {F : FTy → Type} [FloatOps F] (main_v13 : IVec S_ 1) (main_v16 : IVec S2304x16 1) : IVec S_ 1 :=
  let main_c_5 : IVec S_ 1 := constantI S_ 1 1#1
  let main_v17 : IVec S_ 1 := (fun x v => Host.reduce IntOp.andi x v reducesTo_S2304x16_S_d0_1 h_S_) main_v16 main_c_5
  let main_v18 : IVec S_ 1 := andi main_v13 main_v17
  main_v18

def fn {F : FTy → Type} [FloatOps F] (main_arg0 : FVec F S8x4096x768 .f32) (main_arg1 : IVec S2304x768 32) (main_arg2 : FVec F S2304x12 .f32) (main_arg3 : FVec F S16x768 .f32) (main_arg4 : FVec F S2304x16 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S2304x12 .f32 := Host.absf main_arg2
  let main_cst_0 : FVec F S_ .f32 := constant S_ .f32 0x7F800000#32
  let main_v5 : FVec F S2304x12 .f32 := broadcastInDim S2304x12 ![] bcast_S_S2304x12 main_cst_0
  let main_v6 : IVec S2304x12 1 := cmpf .olt main_v4 main_v5
  let main_c_1 : IVec S_ 1 := constantI S_ 1 1#1
  let main_v7 : IVec S_ 1 := (fun x v => Host.reduce IntOp.andi x v reducesTo_S2304x12_S_d0_1 h_S_) main_v6 main_c_1
  let main_v8 : IVec S_ 1 := andi main_v3 main_v7
  let main_v9 : FVec F S16x768 .f32 := Host.absf main_arg3
  let main_cst_2 : FVec F S_ .f32 := constant S_ .f32 0x7F800000#32
  let main_v10 : FVec F S16x768 .f32 := broadcastInDim S16x768 ![] bcast_S_S16x768 main_cst_2
  let main_v11 : IVec S16x768 1 := cmpf .olt main_v9 main_v10
  let main_c_3 : IVec S_ 1 := constantI S_ 1 1#1
  let main_v12 : IVec S_ 1 := (fun x v => Host.reduce IntOp.andi x v reducesTo_S16x768_S_d0_1 h_S_) main_v11 main_c_3
  let main_v13 : IVec S_ 1 := andi main_v8 main_v12
  let main_v14 : FVec F S2304x16 .f32 := Host.absf main_arg4
  let main_cst_4 : FVec F S_ .f32 := constant S_ .f32 0x7F800000#32
  let main_v15 : FVec F S2304x16 .f32 := broadcastInDim S2304x16 ![] bcast_S_S2304x16 main_cst_4
  let main_v16 : IVec S2304x16 1 := cmpf .olt main_v14 main_v15
  fn_part1 (F := F) main_v13 main_v16
-- ==== Kernel.lean ====
abbrev S8x4096x768 : Shape := ⟨3, ![8, 4096, 768]⟩
abbrev S2304x768 : Shape := ⟨2, ![2304, 768]⟩
abbrev S2304x12 : Shape := ⟨2, ![2304, 12]⟩
abbrev S16x768 : Shape := ⟨2, ![16, 768]⟩
abbrev S2304x16 : Shape := ⟨2, ![2304, 16]⟩
abbrev S16 : Shape := ⟨1, ![16]⟩
abbrev S_ : Shape := ⟨0, ![]⟩
abbrev S2304x768x1 : Shape := ⟨3, ![2304, 768, 1]⟩
abbrev S2304x12x64 : Shape := ⟨3, ![2304, 12, 64]⟩
abbrev S768x2304 : Shape := ⟨2, ![768, 2304]⟩
abbrev S768x16 : Shape := ⟨2, ![768, 16]⟩
abbrev S16x2304 : Shape := ⟨2, ![16, 2304]⟩
abbrev S32768x768 : Shape := ⟨2, ![32768, 768]⟩
abbrev S32768x2304 : Shape := ⟨2, ![32768, 2304]⟩
abbrev S512x768 : Shape := ⟨2, ![512, 768]⟩
abbrev S512x2304 : Shape := ⟨2, ![512, 2304]⟩
abbrev S512x16 : Shape := ⟨2, ![512, 16]⟩
abbrev S8x4096x2304 : Shape := ⟨3, ![8, 4096, 2304]⟩

abbrev nBuf : Space → Nat
  | .hbm => 27
  | .vmem => 7
  | .smem => 0
  | _ => 0

abbrev bufTy : (tb : Table) → Fin (tcTables nBuf tb) → BufTy
  | .hbm, ⟨0, _⟩ => ⟨S8x4096x768, .f32⟩
  | .hbm, ⟨1, _⟩ => ⟨S2304x768, .i32⟩
  | .hbm, ⟨2, _⟩ => ⟨S2304x12, .f32⟩
  | .hbm, ⟨3, _⟩ => ⟨S16x768, .f32⟩
  | .hbm, ⟨4, _⟩ => ⟨S2304x16, .f32⟩
  | .hbm, ⟨5, _⟩ => ⟨S16, .f32⟩
  | .hbm, ⟨6, _⟩ => ⟨S_, .i32⟩
  | .hbm, ⟨7, _⟩ => ⟨S2304x768, .i32⟩
  | .hbm, ⟨8, _⟩ => ⟨S2304x768, .i1⟩
  | .hbm, ⟨9, _⟩ => ⟨S_, .i32⟩
  | .hbm, ⟨10, _⟩ => ⟨S2304x768, .i32⟩
  | .hbm, ⟨11, _⟩ => ⟨S2304x768, .i32⟩
  | .hbm, ⟨12, _⟩ => ⟨S2304x768, .i32⟩
  | .hbm, ⟨13, _⟩ => ⟨S2304x768x1, .i32⟩
  | .hbm, ⟨14, _⟩ => ⟨S2304x768, .f32⟩
  | .hbm, ⟨15, _⟩ => ⟨S2304x12x64, .f32⟩
  | .hbm, ⟨16, _⟩ => ⟨S2304x768, .f32⟩
  | .hbm, ⟨17, _⟩ => ⟨S2304x768, .f32⟩
  | .hbm, ⟨18, _⟩ => ⟨S768x2304, .f32⟩
  | .hbm, ⟨19, _⟩ => ⟨S768x2304, .bf16⟩
  | .hbm, ⟨20, _⟩ => ⟨S768x16, .f32⟩
  | .hbm, ⟨21, _⟩ => ⟨S768x16, .bf16⟩
  | .hbm, ⟨22, _⟩ => ⟨S16x2304, .f32⟩
  | .hbm, ⟨23, _⟩ => ⟨S16x2304, .bf16⟩
  | .hbm, ⟨24, _⟩ => ⟨S32768x768, .f32⟩
  | .hbm, ⟨25, _⟩ => ⟨S32768x2304, .f32⟩
  | .hbm, ⟨26, _⟩ => ⟨S8x4096x2304, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S768x16, .bf16⟩
  | .local _ .vmem, ⟨4, _⟩ => ⟨S16x2304, .bf16⟩
  | .local _ .vmem, ⟨5, _⟩ => ⟨S512x2304, .f32⟩
  | .local _ .vmem, ⟨6, _⟩ => ⟨S512x2304, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S2304x768 : S_.BroadcastsInDim S2304x768 (![] : Fin 0 → Fin S2304x768.rank)
  bcast_S2304x768_S2304x768x1_0_1 : S2304x768.BroadcastsInDim S2304x768x1 (![0, 1] : Fin 2 → Fin S2304x768x1.rank)
  bcast_S2304x12_S2304x12x64_0_1 : S2304x12.BroadcastsInDim S2304x12x64 (![0, 1] : Fin 2 → Fin S2304x12x64.rank)
  shapeCasts_S2304x12x64_S2304x768 : S2304x12x64.ShapeCasts S2304x768
  transposes_S2304x768_S768x2304_1_0 : S2304x768.Transposes [1, 0] S768x2304
  bitsLt_bf16_f32 : FTy.bits .bf16 < FTy.bits .f32
  transposes_S16x768_S768x16_1_0 : S16x768.Transposes [1, 0] S768x16
  transposes_S2304x16_S16x2304_1_0 : S2304x16.Transposes [1, 0] S16x2304
  shapeCasts_S8x4096x768_S32768x768 : S8x4096x768.ShapeCasts S32768x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S768x16_S768x16_0_0 : ∀ a, (![0, 0] : Fin 2 → Nat) a + S768x16.size a ≤ S768x16.size a
  h_S768x16 : 0 < S768x16.numel
  shapeCasts_S768x16_S768x16 : S768x16.ShapeCasts S768x16
  inb_S16x2304_S16x2304_0_0 : ∀ a, (![0, 0] : Fin 2 → Nat) a + S16x2304.size a ≤ S16x2304.size a
  h_S16x2304 : 0 < S16x2304.numel
  shapeCasts_S16x2304_S16x2304 : S16x2304.ShapeCasts S16x2304
  inb_S512x2304_S512x2304_0_0 : ∀ a, (![0, 0] : Fin 2 → Nat) a + S512x2304.size a ≤ S512x2304.size a
  h_S512x2304 : 0 < S512x2304.numel
  shapeCasts_S32768x2304_S8x4096x2304 : S32768x2304.ShapeCasts S8x4096x2304
  gather_S16_S2304x768x1_S2304x768_n_0_n_n_0_2_1_wf : GatherDims.WF S16 S2304x768x1 S2304x768 [] [0] [] [0] [] 2 ![1]
  dot_S512x768_S768x2304_S512x2304_1_0_0_1_n_n_wf : DotDims.WF S512x768 S768x2304 S512x2304 [1] [0] [0] [1] [] []
  dot_S512x768_S768x16_S512x16_1_0_0_1_n_n_wf : DotDims.WF S512x768 S768x16 S512x16 [1] [0] [0] [1] [] []
  dot_S512x16_S16x2304_S512x2304_1_0_0_1_n_n_wf : DotDims.WF S512x16 S16x2304 S512x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S32768x768.size a
  hwx0_0 : ∀ i : grid0.Coords, EltTy.bits .f32 = 32 ∨ (Rect.block (s := S32768x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x16.size a ≤ S768x16.size a
  hwx0_2 : ∀ i : grid0.Coords, EltTy.bits .bf16 = 32 ∨ (Rect.block (s := S768x16) S768x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x2304.size a ≤ S16x2304.size a
  hwx0_3 : ∀ i : grid0.Coords, EltTy.bits .bf16 = 32 ∨ (Rect.block (s := S16x2304) S16x2304.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2304.size a ≤ S32768x2304.size a
  hwx0_4 : ∀ i : grid0.Coords, EltTy.bits .f32 = 32 ∨ (Rect.block (s := S32768x2304) S512x2304.size (cc0_transform_4 i) (hinb0_4 i)).WholeWords (EltTy.packing .f32)

variable [Facts₀]

def gather_S16_S2304x768x1_S2304x768_n_0_n_n_0_2_1 : GatherDims S16 S2304x768x1 S2304x768 where
  offsetDims := []
  collapsedSliceDims := [0]
  operandBatchingDims := []
  startIndicesBatchingDims := []
  startIndexMap := [0]
  indexVectorDim := 2
  sliceSizes := ![1]
  wf := gather_S16_S2304x768x1_S2304x768_n_0_n_n_0_2_1_wf
def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S512x768_S768x16_S512x16_1_0_0_1_n_n : DotDims S512x768 S768x16 S512x16 where
  lhsContracting := [1]
  rhsContracting := [0]
  lhsNonContracting := [0]
  rhsNonContracting := [1]
  lhsBatch := []
  rhsBatch := []
  wf := dot_S512x768_S768x16_S512x16_1_0_0_1_n_n_wf
def dot_S512x16_S16x2304_S512x2304_1_0_0_1_n_n : DotDims S512x16 S16x2304 S512x2304 where
  lhsContracting := [1]
  rhsContracting := [0]
  lhsNonContracting := [0]
  rhsNonContracting := [1]
  lhsBatch := []
  rhsBatch := []
  wf := dot_S512x16_S16x2304_S512x2304_1_0_0_1_n_n_wf

abbrev win0_0 : Pipeline.Window sig grid0 :=
  Pipeline.Window.ofSpec (Memref.whole main_v16) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S768x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S16x2304.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x2304.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S2304x768 : Shape := ⟨2, ![2304, 768]⟩
abbrev S2304x12 : Shape := ⟨2, ![2304, 12]⟩
abbrev S16x768 : Shape := ⟨2, ![16, 768]⟩
abbrev S2304x16 : Shape := ⟨2, ![2304, 16]⟩
abbrev S16 : Shape := ⟨1, ![16]⟩
abbrev S_ : Shape := ⟨0, ![]⟩
abbrev S2304x768x1 : Shape := ⟨3, ![2304, 768, 1]⟩
abbrev S2304x12x64 : Shape := ⟨3, ![2304, 12, 64]⟩
abbrev S8x4096x2304 : Shape := ⟨3, ![8, 4096, 2304]⟩
abbrev S8x4096x16 : Shape := ⟨3, ![8, 4096, 16]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S2304x768, .i32⟩
  | .hbm, ⟨2, _⟩ => ⟨S2304x12, .f32⟩
  | .hbm, ⟨3, _⟩ => ⟨S16x768, .f32⟩
  | .hbm, ⟨4, _⟩ => ⟨S2304x16, .f32⟩
  | .hbm, ⟨5, _⟩ => ⟨S16, .f32⟩
  | .hbm, ⟨6, _⟩ => ⟨S_, .i32⟩
  | .hbm, ⟨7, _⟩ => ⟨S2304x768, .i32⟩
  | .hbm, ⟨8, _⟩ => ⟨S2304x768, .i1⟩
  | .hbm, ⟨9, _⟩ => ⟨S_, .i32⟩
  | .hbm, ⟨10, _⟩ => ⟨S2304x768, .i32⟩
  | .hbm, ⟨11, _⟩ => ⟨S2304x768, .i32⟩
  | .hbm, ⟨12, _⟩ => ⟨S2304x768, .i32⟩
  | .hbm, ⟨13, _⟩ => ⟨S2304x768x1, .i32⟩
  | .hbm, ⟨14, _⟩ => ⟨S2304x768, .f32⟩
  | .hbm, ⟨15, _⟩ => ⟨S2304x12x64, .f32⟩
  | .hbm, ⟨16, _⟩ => ⟨S2304x768, .f32⟩
  | .hbm, ⟨17, _⟩ => ⟨S2304x768, .f32⟩
  | .hbm, ⟨18, _⟩ => ⟨S8x4096x2304, .f32⟩
  | .hbm, ⟨19, _⟩ => ⟨S8x4096x16, .f32⟩
  | .hbm, ⟨20, _⟩ => ⟨S8x4096x2304, .f32⟩
  | .hbm, ⟨21, _⟩ => ⟨S_, .f32⟩
  | .hbm, ⟨22, _⟩ => ⟨S8x4096x2304, .f32⟩
  | .hbm, ⟨23, _⟩ => ⟨S8x4096x2304, .f32⟩
  | .hbm, ⟨24, _⟩ => ⟨S8x4096x2304, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S2304x768 : S_.BroadcastsInDim S2304x768 (![] : Fin 0 → Fin S2304x768.rank)
  bcast_S2304x768_S2304x768x1_0_1 : S2304x768.BroadcastsInDim S2304x768x1 (![0, 1] : Fin 2 → Fin S2304x768x1.rank)
  bcast_S2304x12_S2304x12x64_0_1 : S2304x12.BroadcastsInDim S2304x12x64 (![0, 1] : Fin 2 → Fin S2304x12x64.rank)
  shapeCasts_S2304x12x64_S2304x768 : S2304x12x64.ShapeCasts S2304x768
  bcast_S_S8x4096x2304 : S_.BroadcastsInDim S8x4096x2304 (![] : Fin 0 → Fin S8x4096x2304.rank)
  gather_S16_S2304x768x1_S2304x768_n_0_n_n_0_2_1_wf : GatherDims.WF S16 S2304x768x1 S2304x768 [] [0] [] [0] [] 2 ![1]
  dot_S8x4096x768_S2304x768_S8x4096x2304_2_1_01_0_n_n_wf : DotDims.WF S8x4096x768 S2304x768 S8x4096x2304 [2] [1] [0, 1] [0] [] []
  dot_S8x4096x768_S16x768_S8x4096x16_2_1_01_0_n_n_wf : DotDims.WF S8x4096x768 S16x768 S8x4096x16 [2] [1] [0, 1] [0] [] []
  dot_S8x4096x16_S2304x16_S8x4096x2304_2_1_01_0_n_n_wf : DotDims.WF S8x4096x16 S2304x16 S8x4096x2304 [2] [1] [0, 1] [0] [] []

variable [Facts₀]

def gather_S16_S2304x768x1_S2304x768_n_0_n_n_0_2_1 : GatherDims S16 S2304x768x1 S2304x768 where
  offsetDims := []
  collapsedSliceDims := [0]
  operandBatchingDims := []
  startIndicesBatchingDims := []
  startIndexMap := [0]
  indexVectorDim := 2
  sliceSizes := ![1]
  wf := gather_S16_S2304x768x1_S2304x768_n_0_n_n_0_2_1_wf
def dot_S8x4096x768_S2304x768_S8x4096x2304_2_1_01_0_n_n : DotDims S8x4096x768 S2304x768 S8x4096x2304 where
  lhsContracting := [2]
  rhsContracting := [1]
  lhsNonContracting := [0, 1]
  rhsNonContracting := [0]
  lhsBatch := []
  rhsBatch := []
  wf := dot_S8x4096x768_S2304x768_S8x4096x2304_2_1_01_0_n_n_wf
def dot_S8x4096x768_S16x768_S8x4096x16_2_1_01_0_n_n : DotDims S8x4096x768 S16x768 S8x4096x16 where
  lhsContracting := [2]
  rhsContracting := [1]
  lhsNonContracting := [0, 1]
  rhsNonContracting := [0]
  lhsBatch := []
  rhsBatch := []
  wf := dot_S8x4096x768_S16x768_S8x4096x16_2_1_01_0_n_n_wf
def dot_S8x4096x16_S2304x16_S8x4096x2304_2_1_01_0_n_n : DotDims S8x4096x16 S2304x16 S8x4096x2304 where
  lhsContracting := [2]
  rhsContracting := [1]
  lhsNonContracting := [0, 1]
  rhsNonContracting := [0]
  lhsBatch := []
  rhsBatch := []
  wf := dot_S8x4096x16_S2304x16_S8x4096x2304_2_1_01_0_n_n_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KPay.lean ====
/-
  What the kernel body stores, at an entry, on the extended reals.

  The body loads a `512 × 768` block of activations and the three whole matrices (`768 × 2304`, `768 × 16`,
  `16 × 2304`), multiplies the block with the first (rows by columns), multiplies it with the second, multiplies that
  `512 × 16` product with the third, doubles the last product and adds it to the first.  A change of float format is the
  identity on the extended reals, and each product into the zero accumulator is the plain sum over the contracted
  coordinate; so the stored value at `(p, q)` is

      Σ_d x0[p,d] · x1[d,q]  +  2 · Σ_r (Σ_d x0[p,d] · x2[d,r]) · x3[r,q].
-/
import proofs.«135285_j31628139168310_1_alg».proof.Proof.Gen.KernelIdeal.Skeleton
import proofs.«135285_j31628139168310_1_alg».proof.Proof.LibDot
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The stored value at `(p, q)`. -/
theorem pay_apply (x0 : Vec Ideal S512x768 .f32) (x1 : Vec Ideal S768x2304 .bf16) (x2 : Vec Ideal S768x16 .bf16)
    (x3 : Vec Ideal S16x2304 .bf16) (p : Fin 512) (q : Fin 2304) :
    k0_pay1 (F := Ideal) x0 x1 x2 x3 (ix2 p q)
      = (∑ d : Fin 768, x0 (ix2 p d) * x1 (ix2 d q))
        + Ideal.ofBits .f32 0x40000000#32 * ∑ r : Fin 16, (∑ d : Fin 768, x0 (ix2 p d) * x2 (ix2 d r)) * x3 (ix2 r q) := by
  unfold k0_pay1
  simp only [shapeCast_self]
  rw [addf_apply, mulf_apply, broadcast_apply,
    Cert.LibDot.matmul_10_zero_apply dot_S512x768_S768x2304_S512x2304_1_0_0_1_n_n rfl rfl rfl rfl rfl rfl,
    Cert.LibDot.matmul_10_zero_apply dot_S512x16_S16x2304_S512x2304_1_0_0_1_n_n rfl rfl rfl rfl rfl rfl]
  simp only [truncf_apply, Cert.LibDot.matmul_10_zero_apply dot_S512x768_S768x16_S512x16_1_0_0_1_n_n rfl rfl rfl rfl rfl rfl]
  rfl

end Cert.KernelIdeal.Hand

end
-- ==== Proof.Spec.lean ====
/-
  The function both programs compute, entry by entry, on the extended reals.

  With `x` the `8 × 4096 × 768` activations, `w` the `2304 × 768` dequantised weight, `a` the `16 × 768` and `bm`
  the `2304 × 16` low-rank factors, the entry `(b, s, o)` of the result is

      Σ_d x[b,s,d] · w[o,d]  +  2 · Σ_r (Σ_d x[b,s,d] · a[r,d]) · bm[o,r].

  Nothing here depends on how `w` was made from the quantisation indices and the scales: both programs make it by the
  same host operations, so it enters as an argument.
-/
import Idealize.ShloMosaic.Lib.ValueIdx
import Idealize.ShloMosaic.PureOps.Ideal.Laws

noncomputable section

open scoped BigOperators

namespace Cert.Spec

open Idealize.ShloMosaic Idealize.ShloMosaic.ValueIdx

/-- Row `(b, s)` of the activations against row `r` of the first low-rank factor. -/
def mid (x : FVec Ideal ⟨3, ![8, 4096, 768]⟩ .f32) (a : FVec Ideal ⟨2, ![16, 768]⟩ .f32)
    (b : Fin 8) (s : Fin 4096) (r : Fin 16) : EReal :=
  ∑ d : Fin 768, x (ix3 b s d) * a (ix2 r d)

/-- The entry `(b, s, o)` of the result. -/
def entry (x : FVec Ideal ⟨3, ![8, 4096, 768]⟩ .f32) (w : FVec Ideal ⟨2, ![2304, 768]⟩ .f32)
    (a : FVec Ideal ⟨2, ![16, 768]⟩ .f32) (bm : FVec Ideal ⟨2, ![2304, 16]⟩ .f32)
    (b : Fin 8) (s : Fin 4096) (o : Fin 2304) : EReal :=
  (∑ d : Fin 768, x (ix3 b s d) * w (ix2 o d))
    + Ideal.ofBits .f32 0x40000000#32 * ∑ r : Fin 16, mid x a b s r * bm (ix2 o r)

/-- The whole result array. -/
def out (x : FVec Ideal ⟨3, ![8, 4096, 768]⟩ .f32) (w : FVec Ideal ⟨2, ![2304, 768]⟩ .f32)
    (a : FVec Ideal ⟨2, ![16, 768]⟩ .f32) (bm : FVec Ideal ⟨2, ![2304, 16]⟩ .f32) :
    FVec Ideal ⟨3, ![8, 4096, 2304]⟩ .f32 :=
  fun i => entry x w a bm (i 0) (i 1) (i 2)

theorem out_apply (x : FVec Ideal ⟨3, ![8, 4096, 768]⟩ .f32) (w : FVec Ideal ⟨2, ![2304, 768]⟩ .f32)
    (a : FVec Ideal ⟨2, ![16, 768]⟩ .f32) (bm : FVec Ideal ⟨2, ![2304, 16]⟩ .f32)
    (b : Fin 8) (s : Fin 4096) (o : Fin 2304) : out x w a bm (ix3 b s o) = entry x w a bm b s o := rfl

/-! ## The flattened form

The same function with the two leading axes of the activations merged into one axis of `32768 = 8 · 4096` rows and the
three matrices transposed: row `b · 4096 + s` of the flat activations is row `(b, s)` of `x`. -/

/-- Entry `(r, o)` of the flattened result, from the flattened activations and the transposed matrices. -/
def flatEntry (xf : FVec Ideal ⟨2, ![32768, 768]⟩ .f32) (wT : FVec Ideal ⟨2, ![768, 2304]⟩ .bf16)
    (aT : FVec Ideal ⟨2, ![768, 16]⟩ .bf16) (bT : FVec Ideal ⟨2, ![16, 2304]⟩ .bf16)
    (r : Fin 32768) (o : Fin 2304) : EReal :=
  (∑ d : Fin 768, xf (ix2 r d) * wT (ix2 d o))
    + Ideal.ofBits .f32 0x40000000#32 * ∑ k : Fin 16, (∑ d : Fin 768, xf (ix2 r d) * aT (ix2 d k)) * bT (ix2 k o)

/-- The whole flattened result. -/
def flat (xf : FVec Ideal ⟨2, ![32768, 768]⟩ .f32) (wT : FVec Ideal ⟨2, ![768, 2304]⟩ .bf16)
    (aT : FVec Ideal ⟨2, ![768, 16]⟩ .bf16) (bT : FVec Ideal ⟨2, ![16, 2304]⟩ .bf16) :
    FVec Ideal ⟨2, ![32768, 2304]⟩ .f32 :=
  fun i => flatEntry xf wT aT bT (i 0) (i 1)

theorem flat_apply (xf : FVec Ideal ⟨2, ![32768, 768]⟩ .f32) (wT : FVec Ideal ⟨2, ![768, 2304]⟩ .bf16)
    (aT : FVec Ideal ⟨2, ![768, 16]⟩ .bf16) (bT : FVec Ideal ⟨2, ![16, 2304]⟩ .bf16) (r : Fin 32768) (o : Fin 2304) :
    flat xf wT aT bT (ix2 r o) = flatEntry xf wT aT bT r o := rfl

/-- The flattened entry at row `b · 4096 + s` is the entry `(b, s, o)`, when the flat activations are the rows of `x` in
    row-major order and the three matrices are the transposes of `w`, `a` and `bm`. -/
theorem flatEntry_eq_entry (x : FVec Ideal ⟨3, ![8, 4096, 768]⟩ .f32) (w : FVec Ideal ⟨2, ![2304, 768]⟩ .f32)
    (a : FVec Ideal ⟨2, ![16, 768]⟩ .f32) (bm : FVec Ideal ⟨2, ![2304, 16]⟩ .f32)
    (xf : FVec Ideal ⟨2, ![32768, 768]⟩ .f32) (wT : FVec Ideal ⟨2, ![768, 2304]⟩ .bf16)
    (aT : FVec Ideal ⟨2, ![768, 16]⟩ .bf16) (bT : FVec Ideal ⟨2, ![16, 2304]⟩ .bf16)
    (b : Fin 8) (s : Fin 4096) (o : Fin 2304) (r : Fin 32768) (hr : r.val = b.val * 4096 + s.val)
    (hx : ∀ d : Fin 768, xf (ix2 r d) = x (ix3 b s d))
    (hw : ∀ (d : Fin 768) (o : Fin 2304), wT (ix2 d o) = w (ix2 o d))
    (ha : ∀ (d : Fin 768) (k : Fin 16), aT (ix2 d k) = a (ix2 k d))
    (hb : ∀ (k : Fin 16) (o : Fin 2304), bT (ix2 k o) = bm (ix2 o k)) :
    flatEntry xf wT aT bT r o = entry x w a bm b s o := by
  unfold flatEntry entry mid
  simp only [hx, hw, ha, hb]

end Cert.Spec

end
-- ==== Proof.KBlocks.lean ====
/-
  From the blocks the grid points write back to the whole flattened result.

  Grid point `t` (of 64) stages rows `512·t … 512·t + 511` of the flat activations and, whole, the three matrices, and
  writes back rows `512·t … 512·t + 511` of the flat result.  What it writes at row `p` of its block and column `q` is the
  stored value of the body at `(p, q)`, which is the flattened specification at row `512·t + p`.  The 64 blocks tile the
  `32768 × 2304` result (row `r` lies in the block of point `r / 512`), so after the region the result array is the
  flattened specification of the arrays the region found.
-/
import proofs.«135285_j31628139168310_1_alg».proof.Proof.Gen.KernelIdeal.Frame
import proofs.«135285_j31628139168310_1_alg».proof.Proof.KPay
import proofs.«135285_j31628139168310_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ)

theorem origin_zero : (![0, 0] : Fin 2 → Nat) = fun _ => 0 := funext fun a => by fin_cases a <;> rfl

/-- The block indices at grid point `t`: the activations' and the result's blocks are the `t`-th row blocks; the three
    matrices are staged whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One grid point, over plain arrays: if the staged activations are rows `512·T + p` of the flat activations and the
    three staged matrices are the whole matrices, the body's stored value at an entry of the block is the flattened
    specification at the entry's place in the result. -/
theorem point_eq (A0 : FVec Ideal S32768x768 .f32) (A1 : Vec Ideal S768x2304 .bf16) (A2 : Vec Ideal S768x16 .bf16)
    (A3 : Vec Ideal S16x2304 .bf16)
    (x0 : Vec Ideal S512x768 .f32) (x1 : Vec Ideal S768x2304 .bf16) (x2 : Vec Ideal S768x16 .bf16) (x3 : Vec Ideal S16x2304 .bf16)
    (T : Nat) (hT : T < 64)
    (h0 : ∀ (p : Fin 512) (d : Fin 768),
      x0 (ix2 p d) = A0 (ix2 (⟨T * 512 + p.val, by have := p.isLt; omega⟩ : Fin 32768) d))
    (h1 : x1 = A1) (h2 : x2 = A2) (h3 : x3 = A3)
    (j : S512x2304.Idx) (i : S32768x2304.Idx) (hi0 : (i 0).val = T * 512 + (j 0).val) (hi1 : (i 1).val = (j 1).val) :
    k0_pay1 (F := Ideal) x0 x1 x2 x3 j = Cert.Spec.flat A0 A1 A2 A3 i := by
  subst h1 h2 h3
  obtain ⟨p, q, rfl⟩ : ∃ (p : Fin 512) (q : Fin 2304), j = ix2 p q := ⟨j 0, j 1, eq_ix2 j⟩
  have hi : i = ix2 (⟨T * 512 + p.val, by have := p.isLt; omega⟩ : Fin 32768) q := by
    funext a; apply Fin.ext
    match a with
    | ⟨0, _⟩ => exact hi0
    | ⟨1, _⟩ => exact hi1
  rw [hi, pay_apply, Cert.Spec.flat_apply]
  unfold Cert.Spec.flatEntry
  simp only [h0]

/-- What grid point `t` writes back is block `t` of the flattened specification of the arrays the region found. -/
theorem flushed_eq (c : Dev nD) (t : Fin cfg0.N) :
    (dats m 0 c).flushed 4 t = ((cfg0.win 4).blk t).view.read (Elt Ideal)
      (Cert.Spec.flat (V m c main_v16) (V m c main_v11) (V m c main_v13) (V m c main_v15)) := by
  show (cfg0.win 4).cut (grid0.coords t) ((dats m 0 c).after 4 t) = _
  rw [after0_4]
  unfold out0_4
  rw [View.canon_unit_zero origin_zero]
  simp only [View.ld_unit_zero (S := S512x768) origin_zero, View.ld_unit_zero (S := S768x2304) origin_zero,
    View.ld_unit_zero (S := S768x16) origin_zero, View.ld_unit_zero (S := S16x2304) origin_zero]
  obtain ⟨e00, e01, e10, e11, e20, e21, e30, e31, e40, e41⟩ := block_indices t
  have ht : t.val < 64 := by have h := t.isLt; have hN : cfg0.N = 64 := N_0; omega
  funext j
  show k0_pay1 (F := Ideal) (iblk m c 0 t) (iblk m c 1 t) (iblk m c 2 t) (iblk m c 3 t) j
      = Cert.Spec.flat (V m c main_v16) (V m c main_v11) (V m c main_v13) (V m c main_v15) (((cfg0.win 4).blk t).view.emb j)
  refine point_eq (V m c main_v16) (V m c main_v11) (V m c main_v13) (V m c main_v15)
    (iblk m c 0 t) (iblk m c 1 t) (iblk m c 2 t) (iblk m c 3 t) t.val ht ?_ ?_ ?_ ?_ j (((cfg0.win 4).blk t).view.emb j) ?_ ?_
  · intro p d
    show (V m c main_v16 : S32768x768.Idx → EReal) (((cfg0.win 0).blk t).view.emb (ix2 p d)) = _
    refine congrArg (V m c main_v16 : S32768x768.Idx → EReal) ?_
    funext a; apply Fin.ext
    match a with
    | ⟨0, _⟩ => show win0_0.index t (0 : Fin 2) * 512 + 1 * p.val = t.val * 512 + p.val; rw [e00]; omega
    | ⟨1, _⟩ => show win0_0.index t (1 : Fin 2) * 768 + 1 * d.val = d.val; rw [e01]; omega
  · funext y
    show (V m c main_v11 : S768x2304.Idx → EReal) (((cfg0.win 1).blk t).view.emb y) = V m c main_v11 y
    refine congrArg (V m c main_v11 : S768x2304.Idx → EReal) ?_
    funext a; apply Fin.ext
    match a with
    | ⟨0, _⟩ => show win0_1.index t (0 : Fin 2) * 768 + 1 * (y 0).val = (y 0).val; rw [e10]; omega
    | ⟨1, _⟩ => show win0_1.index t (1 : Fin 2) * 2304 + 1 * (y 1).val = (y 1).val; rw [e11]; omega
  · funext y
    show (V m c main_v13 : S768x16.Idx → EReal) (((cfg0.win 2).blk t).view.emb y) = V m c main_v13 y
    refine congrArg (V m c main_v13 : S768x16.Idx → EReal) ?_
    funext a; apply Fin.ext
    match a with
    | ⟨0, _⟩ => show win0_2.index t (0 : Fin 2) * 768 + 1 * (y 0).val = (y 0).val; rw [e20]; omega
    | ⟨1, _⟩ => show win0_2.index t (1 : Fin 2) * 16 + 1 * (y 1).val = (y 1).val; rw [e21]; omega
  · funext y
    show (V m c main_v15 : S16x2304.Idx → EReal) (((cfg0.win 3).blk t).view.emb y) = V m c main_v15 y
    refine congrArg (V m c main_v15 : S16x2304.Idx → EReal) ?_
    funext a; apply Fin.ext
    match a with
    | ⟨0, _⟩ => show win0_3.index t (0 : Fin 2) * 16 + 1 * (y 0).val = (y 0).val; rw [e30]; omega
    | ⟨1, _⟩ => show win0_3.index t (1 : Fin 2) * 2304 + 1 * (y 1).val = (y 1).val; rw [e31]; omega
  · show win0_4.index t (0 : Fin 2) * 512 + 1 * (j 0).val = t.val * 512 + (j 0).val
    rw [e40]; omega
  · show win0_4.index t (1 : Fin 2) * 2304 + 1 * (j 1).val = (j 1).val
    rw [e41]; omega

/-- An index of the result array lies in point `t`'s block iff each coordinate is in the block's range on its axis. -/
theorem mem_block (t : Fin cfg0.N) (i : S32768x2304.Idx) :
    i ∈ ((cfg0.win 4).blk t).view.set ↔ ∀ a : Fin 2, win0_4.index t a * S512x2304.size a ≤ (i a).val
      ∧ (i a).val < win0_4.index t a * S512x2304.size a + S512x2304.size a := by
  show i ∈ ((View.whole main_v17).slice (win0_4.rect t)).set ↔ _
  rw [View.set_slice_whole, Rect.mem_set_unit]
  exact Iff.rfl

/-- After the region the result array is the flattened specification of the arrays the region found: every row `r` is
    in the block of point `r / 512`. -/
theorem final (c : Dev nD) : (dats m 0 c).arrAt 4 cfg0.N
    = Cert.Spec.flat (V m c main_v16) (V m c main_v11) (V m c main_v13) (V m c main_v15) :=
  (dats m 0 c).arrAt_eq_of_cover 4 _ (fun t _ => flushed_eq m c t) fun i => by
    have hi0 : (i 0).val < 32768 := (i 0).isLt
    have hi1 : (i 1).val < 2304 := (i 1).isLt
    have hN : cfg0.N = 64 := N_0
    have hlt : (i 0).val / 512 < cfg0.N := by omega
    obtain ⟨-, -, -, -, -, -, -, -, e40, e41⟩ := block_indices ⟨(i 0).val / 512, hlt⟩
    have e40' : win0_4.index ⟨(i 0).val / 512, hlt⟩ (0 : Fin 2) = (i 0).val / 512 := e40
    refine ⟨⟨(i 0).val / 512, hlt⟩, flush0_4 _, ?_⟩
    rw [mem_block]
    intro a
    match a with
    | ⟨0, _⟩ =>
      show win0_4.index ⟨(i 0).val / 512, hlt⟩ (0 : Fin 2) * 512 ≤ (i 0).val
        ∧ (i 0).val < win0_4.index ⟨(i 0).val / 512, hlt⟩ (0 : Fin 2) * 512 + 512
      rw [e40']; omega
    | ⟨1, _⟩ =>
      show win0_4.index ⟨(i 0).val / 512, hlt⟩ (1 : Fin 2) * 2304 ≤ (i 1).val
        ∧ (i 1).val < win0_4.index ⟨(i 0).val / 512, hlt⟩ (1 : Fin 2) * 2304 + 2304
      rw [e41]; omega

end Cert.KernelIdeal.Hand

end
-- ==== Proof.KHost.lean ====
/-
  The arrays the kernel region finds, as functions of the program's arguments.

  Before the region the host wraps the quantisation indices into range, gathers the codebook at them and multiplies by the
  scales repeated over their blocks of 64 columns (the dequantised weight, `weight`), transposes the weight and the two
  low-rank factors (the changes of float format that follow are the identity on the extended reals), and merges the two
  leading axes of the activations.  So, entry by entry: the flat activations at row `b · 4096 + s` are row `(b, s)` of
  the activations, and each of the three matrices read at `(i, j)` is its source read at `(j, i)`.
-/
import proofs.«135285_j31628139168310_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

/-- The dequantised weight: the codebook gathered at the wrapped indices, times the scales repeated over their
    blocks of 64 columns. -/
def weight {F : FTy → Type} [FloatOps F] (q : (⟨S2304x768, .i32⟩ : BufTy).Contents (Elt F))
    (sc : (⟨S2304x12, .f32⟩ : BufTy).Contents (Elt F)) : (⟨S2304x768, .f32⟩ : BufTy).Contents (Elt F) :=
  mulf
    (Host.gather gather_S16_S2304x768x1_S2304x768_n_0_n_n_0_2_1 (fun i => FloatOps.ofBits .f32 (lit0 (S16.rowMajor i)))
      (broadcastInDim S2304x768x1 ![0, 1] bcast_S2304x768_S2304x768x1_0_1
        (select (cmpi .slt q (broadcastInDim S2304x768 ![] bcast_S_S2304x768 (constantI S_ 32 0#32)))
          (addi q (broadcastInDim S2304x768 ![] bcast_S_S2304x768 (constantI S_ 32 16#32))) q)))
    (shapeCast _ (broadcastInDim S2304x12x64 ![0, 1] bcast_S2304x12_S2304x12x64_0_1 sc) shapeCasts_S2304x12x64_S2304x768)

variable (m : (ℓ : Loc nD τ sig) → Buf (Elt Ideal) ℓ)

/-! ## The four arrays the windows stage, as terms -/

theorem V_v16 (c : Dev nD) :
    (V m c main_v16 : S32768x768.Idx → EReal)
      = shapeCast S32768x768 (m ((c : Thread nD τ).loc main_arg0)) shapeCasts_S8x4096x768_S32768x768 := by
  show StableHlo.after hostOps0 (fun b => m (c, b)) (Proc.devRef .tc main_v16) = _
  after_results_simp <;> rfl

theorem V_v11 (c : Dev nD) :
    (V m c main_v11 : S768x2304.Idx → EReal)
      = truncf (F := Ideal) .bf16 (transpose S768x2304 [1, 0]
          (weight (F := Ideal) (m ((c : Thread nD τ).loc main_arg1)) (m ((c : Thread nD τ).loc main_arg2)))
          transposes_S2304x768_S768x2304_1_0) bitsLt_bf16_f32 := by
  show StableHlo.after hostOps0 (fun b => m (c, b)) (Proc.devRef .tc main_v11) = _
  unfold weight
  after_results_simp <;> rfl

theorem V_v13 (c : Dev nD) :
    (V m c main_v13 : S768x16.Idx → EReal)
      = truncf (F := Ideal) .bf16 (transpose S768x16 [1, 0] (m ((c : Thread nD τ).loc main_arg3)) transposes_S16x768_S768x16_1_0) bitsLt_bf16_f32 := by
  show StableHlo.after hostOps0 (fun b => m (c, b)) (Proc.devRef .tc main_v13) = _
  after_results_simp <;> rfl

theorem V_v15 (c : Dev nD) :
    (V m c main_v15 : S16x2304.Idx → EReal)
      = truncf (F := Ideal) .bf16 (transpose S16x2304 [1, 0] (m ((c : Thread nD τ).loc main_arg4)) transposes_S2304x16_S16x2304_1_0) bitsLt_bf16_f32 := by
  show StableHlo.after hostOps0 (fun b => m (c, b)) (Proc.devRef .tc main_v15) = _
  after_results_simp <;> rfl

/-! ## The same, entry by entry -/

/-- Row `b · 4096 + s` of the flat activations is row `(b, s)` of the activations. -/
theorem V_v16_apply (c : Dev nD) (b : Fin 8) (s : Fin 4096) (d : Fin 768) (r : Fin 32768) (hr : r.val = b.val * 4096 + s.val) :
    (V m c main_v16 : S32768x768.Idx → EReal) (ix2 r d)
      = (m ((c : Thread nD τ).loc main_arg0) : S8x4096x768.Idx → EReal) (ix3 b s d) := by
  rw [V_v16]
  refine shapeCast_apply _ _ _ _ ?_
  show ((⟨3, ![8, 4096, 768]⟩ : Shape).rowMajor (ix3 b s d)).val = ((⟨2, ![32768, 768]⟩ : Shape).rowMajor (ix2 r d)).val
  rw [Shape.rowMajor_val_three, Shape.rowMajor_val_two]
  show (b.val * 4096 + s.val) * 768 + d.val = r.val * 768 + d.val
  rw [hr]

/-- The transposed weight at `(d, o)` is the weight at `(o, d)`. -/
theorem V_v11_apply (c : Dev nD) (d : Fin 768) (o : Fin 2304) :
    (V m c main_v11 : S768x2304.Idx → EReal) (ix2 d o)
      = weight (F := Ideal) (m ((c : Thread nD τ).loc main_arg1)) (m ((c : Thread nD τ).loc main_arg2)) (ix2 o d) := by
  rw [V_v11, truncf_apply]
  exact transpose_ix2_apply _ _ d o

/-- The transposed first factor at `(d, k)` is the factor at `(k, d)`. -/
theorem V_v13_apply (c : Dev nD) (d : Fin 768) (k : Fin 16) :
    (V m c main_v13 : S768x16.Idx → EReal) (ix2 d k)
      = (m ((c : Thread nD τ).loc main_arg3) : S16x768.Idx → EReal) (ix2 k d) := by
  rw [V_v13, truncf_apply]
  exact transpose_ix2_apply _ _ d k

/-- The transposed second factor at `(k, o)` is the factor at `(o, k)`. -/
theorem V_v15_apply (c : Dev nD) (k : Fin 16) (o : Fin 2304) :
    (V m c main_v15 : S16x2304.Idx → EReal) (ix2 k o)
      = (m ((c : Thread nD τ).loc main_arg4) : S2304x16.Idx → EReal) (ix2 o k) := by
  rw [V_v15, truncf_apply]
  exact transpose_ix2_apply _ _ k o

end Cert.KernelIdeal.Hand

end
-- ==== Proof.KRun.lean ====
/-
  The kernel program's run, read back.

  After the region one host operation reshapes the `32768 × 2304` result into `8 × 4096 × 2304`: entry `(b, s, o)` is the
  flat entry at row `b · 4096 + s`.  The region leaves the flat result at the flattened specification of the arrays it
  found; those arrays are the merged activations and the transposes of the dequantised weight and of the two low-rank
  factors; so the program's result is the specification of its arguments, and the arguments end unchanged.
-/
import proofs.«135285_j31628139168310_1_alg».proof.Proof.Gen.KernelIdeal.Frame
import proofs.«135285_j31628139168310_1_alg».proof.Proof.KBlocks
import proofs.«135285_j31628139168310_1_alg».proof.Proof.KHost
import proofs.«135285_j31628139168310_1_alg».proof.Proof.Spec
import Idealize.ShloMosaic.Lib.StableHlo.Run
import Idealize.ShloMosaic.Lib.Pipeline.Value

noncomputable section

open Idealize.ShloMosaic Idealize.ShloMosaic.TcCoe Idealize.SL.Sem

namespace Cert.KernelIdeal.Hand

open Cert.KernelIdeal Cert.KernelIdeal.Gen Idealize.ShloMosaic.ValueIdx

variable (m : (ℓ : Loc nD τ sig) → Buf (Elt Ideal) ℓ) (ρ : Dev nD → PrngReg)

/-- The program's result buffer after the host operation that follows the region: the flat result, reshaped. -/
theorem tail_eq (c : Dev nD) :
    (Pipeline.afterTail₀ cfgs (dats m) 0 (V0 m) [hostOps1] c main_v18 : S8x4096x2304.Idx → EReal)
      = shapeCast S8x4096x2304 (Cert.Spec.flat (V m c main_v16) (V m c main_v11) (V m c main_v13) (V m c main_v15))
          shapeCasts_S32768x2304_S8x4096x2304 := by
  unfold Pipeline.afterTail₀
  show StableHlo.after hostOps1 _ (Proc.devRef .tc main_v18) = _
  simp only [StableHlo.after_cons, StableHlo.after_nil]
  rw [StableHlo.reshape_result]
  have e := (Pipeline.withArrays_arr spec0 launch0.win.arr_inj c (V0 m c) (fun w => (dats m 0 c).arrAt w cfg0.N) 4).trans
    (final m c)
  exact congrArg (fun A : S32768x2304.Idx → EReal => shapeCast S8x4096x2304 A shapeCasts_S32768x2304_S8x4096x2304) e

/-- The program's result is the specification of its arguments. -/
theorem result_eq (c : Dev nD) :
    (Pipeline.afterTail₀ cfgs (dats m) 0 (V0 m) [hostOps1] c main_v18 : S8x4096x2304.Idx → EReal)
      = Cert.Spec.out (m ((c : Thread nD τ).loc main_arg0))
          (weight (F := Ideal) (m ((c : Thread nD τ).loc main_arg1)) (m ((c : Thread nD τ).loc main_arg2)))
          (m ((c : Thread nD τ).loc main_arg3)) (m ((c : Thread nD τ).loc main_arg4)) := by
  rw [tail_eq]
  funext i
  obtain ⟨b, s, o, rfl⟩ : ∃ (b : Fin 8) (s : Fin 4096) (o : Fin 2304), i = ix3 b s o := ⟨i 0, i 1, i 2, eq_ix3 i⟩
  rw [Cert.Spec.out_apply]
  have hr : b.val * 4096 + s.val < 32768 := by have := b.isLt; have := s.isLt; omega
  refine (shapeCast_apply _ _ _ (ix2 (⟨b.val * 4096 + s.val, hr⟩ : Fin 32768) o) ?_).trans ?_
  · show ((⟨2, ![32768, 2304]⟩ : Shape).rowMajor (ix2 (⟨b.val * 4096 + s.val, hr⟩ : Fin 32768) o)).val
        = ((⟨3, ![8, 4096, 2304]⟩ : Shape).rowMajor (ix3 b s o)).val
    rw [Shape.rowMajor_val_two, Shape.rowMajor_val_three]
    rfl
  · rw [Cert.Spec.flat_apply]
    exact Cert.Spec.flatEntry_eq_entry _ _ _ _ _ _ _ _ b s o ⟨b.val * 4096 + s.val, hr⟩ rfl
      (fun d => V_v16_apply m c b s d _ rfl) (V_v11_apply m c) (V_v13_apply m c) (V_v15_apply m c)

/-- On every device, from any memory with zero counters: every weakly fair execution of @main terminates with the
    result buffer at the specification of the argument arrays and the argument arrays unchanged. -/
theorem run : θ_run defs (onTc (τ := τ) (main (F := Ideal))) ⟨m, fun _ => 0, ρ⟩ fun r => ∀ c : Dev nD,
      r.2.mem ((c.tc : Thread nD τ).loc main_v18)
        = Cert.Spec.out (m ((c : Thread nD τ).loc main_arg0))
            (weight (F := Ideal) (m ((c : Thread nD τ).loc main_arg1)) (m ((c : Thread nD τ).loc main_arg2)))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.RefRun.lean ====
/-
  The reference program's run, read back.

  The reference is a straight line of host operations: the quantisation indices are wrapped into range (an index below
  zero has 16 added), the sixteen-entry codebook is gathered at them and multiplied, entry by entry, by the scales
  (each scale repeated over its block of 64 columns) — this is the dequantised weight, `weight` below —; then the
  activations are contracted with the weight's rows, and, for the low-rank update, with the rows of the first factor
  and that product with the rows of the second; the update is doubled and added.  Every weakly fair execution ends
  with the result buffer at that composed term (`result`) of the argument arrays, the arguments unchanged.
-/
import proofs.«135285_j31628139168310_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The dequantised weight: the codebook gathered at the wrapped indices, times the scales repeated over their
    blocks of 64 columns. -/
def weight (q : (⟨S2304x768, .i32⟩ : BufTy).Contents (Elt F)) (sc : (⟨S2304x12, .f32⟩ : BufTy).Contents (Elt F)) :
    (⟨S2304x768, .f32⟩ : BufTy).Contents (Elt F) :=
  mulf
    (Host.gather gather_S16_S2304x768x1_S2304x768_n_0_n_n_0_2_1 (fun i => FloatOps.ofBits .f32 (lit0 (S16.rowMajor i)))
      (broadcastInDim S2304x768x1 ![0, 1] bcast_S2304x768_S2304x768x1_0_1
        (select (cmpi .slt q (broadcastInDim S2304x768 ![] bcast_S_S2304x768 (constantI S_ 32 0#32)))
          (addi q (broadcastInDim S2304x768 ![] bcast_S_S2304x768 (constantI S_ 32 16#32))) q)))
    (shapeCast _ (broadcastInDim S2304x12x64 ![0, 1] bcast_S2304x12_S2304x12x64_0_1 sc) shapeCasts_S2304x12x64_S2304x768)

/-- The reference's result as one term of its arguments. -/
def result (x : (⟨S8x4096x768, .f32⟩ : BufTy).Contents (Elt F)) (q : (⟨S2304x768, .i32⟩ : BufTy).Contents (Elt F))
    (sc : (⟨S2304x12, .f32⟩ : BufTy).Contents (Elt F)) (a : (⟨S16x768, .f32⟩ : BufTy).Contents (Elt F))
    (bm : (⟨S2304x16, .f32⟩ : BufTy).Contents (Elt F)) : (⟨S8x4096x2304, .f32⟩ : BufTy).Contents (Elt F) :=
  addf (Host.dotGeneral dot_S8x4096x768_S2304x768_S8x4096x2304_2_1_01_0_n_n none x (weight q sc))
    (mulf (broadcastInDim S8x4096x2304 ![] bcast_S_S8x4096x2304 (constant S_ .f32 0x40000000#32))
      (Host.dotGeneral dot_S8x4096x16_S2304x16_S8x4096x2304_2_1_01_0_n_n none
        (Host.dotGeneral dot_S8x4096x768_S16x768_S8x4096x16_2_1_01_0_n_n none x a) bm))

/-- @main's 21 operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S2304x768 ![] bcast_S_S2304x768 : (⟨S_, .i32⟩ : BufTy).Contents (Elt F) → (⟨S2304x768, .i32⟩ : BufTy).Contents (Elt F)),
    binary main_arg1 main_v0 main_v1 (cmpi .slt : (⟨S2304x768, .i32⟩ : BufTy).Contents (Elt F) → (⟨S2304x768, .i32⟩ : BufTy).Contents (Elt F) → (⟨S2304x768, .i1⟩ : BufTy).Contents (Elt F)),
    nullary main_c_0 (constantI S_ 32 16#32),
    unary main_c_0 main_v2 (broadcastInDim S2304x768 ![] bcast_S_S2304x768 : (⟨S_, .i32⟩ : BufTy).Contents (Elt F) → (⟨S2304x768, .i32⟩ : BufTy).Contents (Elt F)),
    binary main_arg1 main_v2 main_v3 (addi : (⟨S2304x768, .i32⟩ : BufTy).Contents (Elt F) → (⟨S2304x768, .i32⟩ : BufTy).Contents (Elt F) → (⟨S2304x768, .i32⟩ : BufTy).Contents (Elt F)),
    ternary main_v1 main_v3 main_arg1 main_v4 (select : (⟨S2304x768, .i1⟩ : BufTy).Contents (Elt F) → (⟨S2304x768, .i32⟩ : BufTy).Contents (Elt F) → (⟨S2304x768, .i32⟩ : BufTy).Contents (Elt F) → (⟨S2304x768, .i32⟩ : BufTy).Contents (Elt F)),
    unary main_v4 main_v5 (broadcastInDim S2304x768x1 ![0, 1] bcast_S2304x768_S2304x768x1_0_1 : (⟨S2304x768, .i32⟩ : BufTy).Contents (Elt F) → (⟨S2304x768x1, .i32⟩ : BufTy).Contents (Elt F)),
    binary main_cst main_v5 main_v6 ((fun x i => Host.gather gather_S16_S2304x768x1_S2304x768_n_0_n_n_0_2_1 x i) : (⟨S16, .f32⟩ : BufTy).Contents (Elt F) → (⟨S2304x768x1, .i32⟩ : BufTy).Contents (Elt F) → (⟨S2304x768, .f32⟩ : BufTy).Contents (Elt F)),
    unary main_arg2 main_v7 (broadcastInDim S2304x12x64 ![0, 1] bcast_S2304x12_S2304x12x64_0_1 : (⟨S2304x12, .f32⟩ : BufTy).Contents (Elt F) → (⟨S2304x12x64, .f32⟩ : BufTy).Contents (Elt F)),
    reshape main_v7 main_v8 rfl shapeCasts_S2304x12x64_S2304x768,
    binary main_v6 main_v8 main_v9 (mulf : (⟨S2304x768, .f32⟩ : BufTy).Contents (Elt F) → (⟨S2304x768, .f32⟩ : BufTy).Contents (Elt F) → (⟨S2304x768, .f32⟩ : BufTy).Contents (Elt F)),
    binary main_arg0 main_v9 main_v10 ((fun l r => Host.dotGeneral dot_S8x4096x768_S2304x768_S8x4096x2304_2_1_01_0_n_n none l r) : (⟨S8x4096x768, .f32⟩ : BufTy).Contents (Elt F) → (⟨S2304x768, .f32⟩ : BufTy).Contents (Elt F) → (⟨S8x4096x2304, .f32⟩ : BufTy).Contents (Elt F)),
    binary main_arg0 main_arg3 main_v11 ((fun l r => Host.dotGeneral dot_S8x4096x768_S16x768_S8x4096x16_2_1_01_0_n_n none l r) : (⟨S8x4096x768, .f32⟩ : BufTy).Contents (Elt F) → (⟨S16x768, .f32⟩ : BufTy).Contents (Elt F) → (⟨S8x4096x16, .f32⟩ : BufTy).Contents (Elt F)),
    binary main_v11 main_arg4 main_v12 ((fun l r => Host.dotGeneral dot_S8x4096x16_S2304x16_S8x4096x2304_2_1_01_0_n_n none l r) : (⟨S8x4096x16, .f32⟩ : BufTy).Contents (Elt F) → (⟨S2304x16, .f32⟩ : BufTy).Contents (Elt F) → (⟨S8x4096x2304, .f32⟩ : BufTy).Contents (Elt F)),
    nullary main_cst_1 (constant S_ .f32 0x40000000#32),
    unary main_cst_1 main_v13 (broadcastInDim S8x4096x2304 ![] bcast_S_S8x4096x2304 : (⟨S_, .f32⟩ : BufTy).Contents (Elt F) → (⟨S8x4096x2304, .f32⟩ : BufTy).Contents (Elt F)),
    binary main_v13 main_v12 main_v14 (mulf : (⟨S8x4096x2304, .f32⟩ : BufTy).Contents (Elt F) → (⟨S8x4096x2304, .f32⟩ : BufTy).Contents (Elt F) → (⟨S8x4096x2304, .f32⟩ : BufTy).Contents (Elt F)),
    binary main_v10 main_v14 main_v15 (addf : (⟨S8x4096x2304, .f32⟩ : BufTy).Contents (Elt F) → (⟨S8x4096x2304, .f32⟩ : BufTy).Contents (Elt F) → (⟨S8x4096x2304, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., reshape_bufs_sub ..,
    binary_bufs_sub .., binary_bufs_sub .., binary_bufs_sub .., binary_bufs_sub .., nullary_bufs_sub .., unary_bufs_sub ..,
    binary_bufs_sub .., binary_bufs_sub ..⟩

/-- The result buffer after the operations: `result` of the valuation at the argument buffers. -/
theorem after_v15 (V : Valuation τ sig (Elt F)) :
    after ops V (Proc.devRef .tc main_v15)
      = result (V (Proc.devRef .tc main_arg0)) (V (Proc.devRef .tc main_arg1)) (V (Proc.devRef .tc main_arg2))
          (V (Proc.devRef .tc main_arg3)) (V (Proc.devRef .tc main_arg4)) := by
  unfold result weight
  after_results_simp
  rfl

/-- No operation writes an argument buffer. -/
theorem after_arg0 (V : Valuation τ sig (Elt F)) : after ops V (Proc.devRef .tc main_arg0) = V (Proc.devRef .tc main_arg0) := by
  after_results_simp
theorem after_arg1 (V : Valuation τ sig (Elt F)) : after ops V (Proc.devRef .tc main_arg1) = V (Proc.devRef .tc main_arg1) := by
  after_results_simp
theorem after_arg2 (V : Valuation τ sig (Elt F)) : after ops V (Proc.devRef .tc main_arg2) = V (Proc.devRef .tc main_arg2) := by
  after_results_simp
theorem after_arg3 (V : Valuation τ sig (Elt F)) : after ops V (Proc.devRef .tc main_arg3) = V (Proc.devRef .tc main_arg3) := by
  after_results_simp
theorem after_arg4 (V : Valuation τ sig (Elt F)) : after ops V (Proc.devRef .tc main_arg4) = V (Proc.devRef .tc main_arg4) := by
  after_results_simp

/-- On every device, from any memory with zero counters: every weakly fair execution of @main terminates with the
    result buffer at `result` of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v15).trans (after_v15 _),
      (h c main_arg0).trans (after_arg0 _),
      (h c main_arg1).trans (after_arg1 _),
      (h c main_arg2).trans (after_arg2 _),
      (h c main_arg3).trans (after_arg3 _),
      (h c main_arg4).trans (after_arg4 _)⟩)
    (run_seq scopedRefs_eq scopedSems_eq defs main (fun _ => ops) main_eq (fun _ => ops_sub) m ρ)

end Cert.ReferenceIdeal.HandRun

end
-- ==== Proof.LibDotRows.lean ====
/-
  A stack of matrices against the rows of a matrix, read at an entry at the ideal values.

  For a host `dot_general` with no batch axis whose left operand is a `B × S × K` array contracted on its last axis
  and whose right operand is an `N × K` matrix contracted on its last axis, the entry `(b, s, n)` of the result is the
  sum over the contracted coordinate `c` of the left entry `(b, s, c)` times the right entry `(n, c)`.  The statement
  holds for any dimension numbers record whose axis lists are the stated ones (a printed record satisfies each
  hypothesis by `rfl`).  Also: with no batch axis, a non-contracting axis of either operand reads the output
  coordinate at its position among the non-contracting axes (the right operand's after the left operand's).
-/
import Idealize.ShloMosaic.Lib.ValueIdx
import Idealize.ShloMosaic.PureOps.Ideal.Laws

noncomputable section

open scoped BigOperators

namespace Cert.LibDotRows

open Idealize.ShloMosaic Idealize.ShloMosaic.ValueIdx

section Axes
variable {sl sr so : Shape} (d : DotDims sl sr so)

/-- With no batch axis, a non-contracting axis of the left operand reads the output coordinate whose position is
    the axis's position in the list of the left operand's non-contracting axes. -/
theorem lhsIdx_val_nonAt (hb : d.lhsBatch = []) {a : Fin sl.rank} (p : Nat) (hp : p < so.rank)
    (hmem : a ∈ d.lhsNonContracting) (hidx : d.lhsNonContracting.idxOf a = p) (j : so.Idx) (k : d.contr.Idx) :
    (d.lhsIdx j k a).val = (j ⟨p, hp⟩).val := by
  have hnb : a ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by rw [hb, List.length_nil, Nat.zero_add]; exact hidx)

/-- With no batch axis, a non-contracting axis of the right operand reads the output coordinate that comes after
    the left operand's non-contracting axes, at the axis's position in the right operand's list. -/
theorem rhsIdx_val_nonAt (hlb : d.lhsBatch = []) (hrb : d.rhsBatch = []) {a : Fin sr.rank} (p : Nat) (hp : p < so.rank)
    (hmem : a ∈ d.rhsNonContracting) (hidx : d.lhsNonContracting.length + d.rhsNonContracting.idxOf a = p)
    (j : so.Idx) (k : d.contr.Idx) : (d.rhsIdx j k a).val = (j ⟨p, hp⟩).val := by
  have hnb : a ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by rw [hlb, List.length_nil, Nat.zero_add]; exact hidx)

end Axes

/-- A `B × S × K` array against an `N × K` matrix, both contracted on their last axis: entry `(b, s, n)` is the sum
    over `c` of the entries `(b, s, c)` and `(n, c)` multiplied. -/
theorem dotGeneral_rows_apply {B S K N : Nat} {φ₁ φ₂ : FTy}
    (d : DotDims ⟨3, ![B, S, K]⟩ ⟨2, ![N, K]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (L : FVec Ideal ⟨3, ![B, S, K]⟩ φ₁) (R : FVec Ideal ⟨2, ![N, K]⟩ φ₂)
    (b : Fin B) (s : Fin S) (n : Fin N) :
    Host.dotGeneral (F := Ideal) d prec L R (ix3 b s n) = ∑ c : Fin K, L (ix3 b s c) * R (ix2 n c) := by
  have hr : d.contr.rank = 1 := by rw [d.rank_contr, hlc]; rfl
  have hs : d.contr.size ⟨0, by omega⟩ = K := by
    rw [d.size_contr 0 (by rw [hlc]; exact Nat.one_pos)]; simp [hlc]
  show FloatOps.dotGeneral d prec .single L R (ix3 b s n) = _
  rw [Ideal.dotGeneral_apply, ← Equiv.sum_comp (contrEquiv1 d K hr hs).symm]
  refine Finset.sum_congr rfl fun c _ => ?_
  have c2 := contrEquiv1_symm_val d K hr hs c
  have l0 := lhsIdx_val_nonAt d hlb 0 (Nat.zero_lt_succ 2) (a := 0) (by rw [hln]; simp) (by rw [hln]; rfl)
    (ix3 b s n) ((contrEquiv1 d K hr hs).symm c)
  have l1 := lhsIdx_val_nonAt d hlb 1 (Nat.succ_lt_succ (Nat.zero_lt_succ 1)) (a := 1) (by rw [hln]; simp) (by rw [hln]; rfl)
    (ix3 b s n) ((contrEquiv1 d K hr hs).symm c)
  have l2 := (d.lhsIdx_val_of_single hlc (ix3 b s n) ((contrEquiv1 d K hr hs).symm c)).trans c2
  have r0 := rhsIdx_val_nonAt d hlb hrb 2 (Nat.lt_succ_self 2) (a := 0) (by rw [hrn]; simp) (by rw [hln, hrn]; rfl)
    (ix3 b s n) ((contrEquiv1 d K hr hs).symm c)
  have r1 := (d.rhsIdx_val_of_single hrc (ix3 b s n) ((contrEquiv1 d K hr hs).symm c)).trans c2
  have l3 : d.lhsIdx (ix3 b s n) ((contrEquiv1 d K hr hs).symm c) = ix3 b s c := by
    funext ax; apply Fin.ext
    match ax with
    | ⟨0, _⟩ => exact l0
    | ⟨1, _⟩ => exact l1
    | ⟨2, _⟩ => exact l2
  have r3 : d.rhsIdx (ix3 b s n) ((contrEquiv1 d K hr hs).symm c) = ix2 n c := by
    funext ax; apply Fin.ext
    match ax with
    | ⟨0, _⟩ => exact r0
    | ⟨1, _⟩ => exact r1
  rw [l3, r3]

end Cert.LibDotRows

end
-- ==== Proof.RefValue.lean ====
/-
  The reference's result term, on the extended reals, is the specification.

  Each of the three host contractions has one contracted axis and no batch axis: a stack of `8 × 4096` rows against the
  rows of a matrix.  Read at `(b, s, o)` they are plain sums over the contracted coordinate; the broadcast constant reads
  as its value; and the sum of the base product and the doubled low-rank product is, term for term, `Spec.entry` with
  the dequantised weight in the place of `w`.
-/
import proofs.«135285_j31628139168310_1_alg».proof.Proof.RefRun
import proofs.«135285_j31628139168310_1_alg».proof.Proof.Spec
import proofs.«135285_j31628139168310_1_alg».proof.Proof.LibDotRows

noncomputable section

open scoped BigOperators

namespace Cert.ReferenceIdeal.HandValue

open Cert.ReferenceIdeal Cert.ReferenceIdeal.Gen Cert.ReferenceIdeal.HandRun Idealize.ShloMosaic Idealize.ShloMosaic.ValueIdx

theorem result_eq (x : FVec Ideal S8x4096x768 .f32) (q : IVec S2304x768 32) (sc : FVec Ideal S2304x12 .f32)
    (a : FVec Ideal S16x768 .f32) (bm : FVec Ideal S2304x16 .f32) :
    result (F := Ideal) x q sc a bm = Cert.Spec.out x (weight (F := Ideal) q sc) a bm := by
  funext i
  obtain ⟨b, s, o, rfl⟩ : ∃ (b : Fin 8) (s : Fin 4096) (o : Fin 2304), i = ix3 b s o := ⟨i 0, i 1, i 2, eq_ix3 i⟩
  rw [Cert.Spec.out_apply]
  unfold result Cert.Spec.entry Cert.Spec.mid
  show Host.dotGeneral (F := Ideal) dot_S8x4096x768_S2304x768_S8x4096x2304_2_1_01_0_n_n none x (weight (F := Ideal) q sc) (ix3 b s o)
      + Ideal.ofBits .f32 0x40000000#32
        * Host.dotGeneral (F := Ideal) dot_S8x4096x16_S2304x16_S8x4096x2304_2_1_01_0_n_n none
            (Host.dotGeneral (F := Ideal) dot_S8x4096x768_S16x768_S8x4096x16_2_1_01_0_n_n none x a) bm (ix3 b s o) = _
  rw [Cert.LibDotRows.dotGeneral_rows_apply dot_S8x4096x768_S2304x768_S8x4096x2304_2_1_01_0_n_n rfl rfl rfl rfl rfl rfl,
    Cert.LibDotRows.dotGeneral_rows_apply dot_S8x4096x16_S2304x16_S8x4096x2304_2_1_01_0_n_n rfl rfl rfl rfl rfl rfl]
  simp only [Cert.LibDotRows.dotGeneral_rows_apply dot_S8x4096x768_S16x768_S8x4096x16_2_1_01_0_n_n rfl rfl rfl rfl rfl rfl]

end Cert.ReferenceIdeal.HandValue

end
-- ==== Proof.lean ====
/-
  The certificate: a quantised linear layer with a low-rank update, as a tiled kernel and as three host contractions.

  Both programs dequantise the weight by the same host operations (the sixteen-entry codebook gathered at the wrapped
  indices, times the per-block scales) and compute, for every row `(b, s)` of the activations and every output
  column `o`,

      Σ_d x[b,s,d] · w[o,d]  +  2 · Σ_r (Σ_d x[b,s,d] · a[r,d]) · bm[o,r].

  The kernel works on the activations flattened to `32768` rows, in 64 row blocks of 512, against the transposed
  matrices, with the products' operands passed through a narrower float format; on the extended reals a change of
  format is the identity and a matrix product into a zero accumulator is the plain sum, so each block is the flattened
  form of the formula, the blocks tile the result, and the final reshape puts row `b · 4096 + s` at `(b, s)`.  The
  reference's three contractions read at `(b, s, o)` are the same sums.  Only commutative, associative sums and the
  same products in the same order occur on both sides, so no finiteness of the inputs is used.
-/
import proofs.«135285_j31628139168310_1_alg».proof.Defs
import proofs.«135285_j31628139168310_1_alg».proof.Proof.Gen.Kernel
import proofs.«135285_j31628139168310_1_alg».proof.Proof.Gen.Kernel.Skeleton
import proofs.«135285_j31628139168310_1_alg».proof.Proof.Gen.Kernel.Launch
import proofs.«135285_j31628139168310_1_alg».proof.Proof.Gen.Kernel.Points
import proofs.«135285_j31628139168310_1_alg».proof.Proof.Gen.Kernel.Frame
import proofs.«135285_j31628139168310_1_alg».proof.Proof.Gen.KernelIdeal
import proofs.«135285_j31628139168310_1_alg».proof.Proof.Gen.KernelIdeal.Skeleton
import proofs.«135285_j31628139168310_1_alg».proof.Proof.Gen.KernelIdeal.Launch
import proofs.«135285_j31628139168310_1_alg».proof.Proof.Gen.KernelIdeal.Points
import proofs.«135285_j31628139168310_1_alg».proof.Proof.Gen.KernelIdeal.Frame
import proofs.«135285_j31628139168310_1_alg».proof.Proof.Gen.ReferenceIdeal
import proofs.«135285_j31628139168310_1_alg».proof.Proof.Gen.Pre_finite_inputs
import proofs.«135285_j31628139168310_1_alg».proof.Proof.KRun
import proofs.«135285_j31628139168310_1_alg».proof.Proof.RefRun
import proofs.«135285_j31628139168310_1_alg».proof.Proof.RefValue
import Idealize.ShloMosaic.Adequacy
import Idealize.ShloMosaic.Init

noncomputable section

namespace Cert.Proof

open Idealize.ShloMosaic Idealize.SL.Sem

/-- The dequantised weight is one function in both programs: the same host operations on the same arrays. -/
theorem weight_eq (q : IVec Cert.KernelIdeal.S2304x768 32) (sc : FVec Ideal Cert.KernelIdeal.S2304x12 .f32) :
    Cert.ReferenceIdeal.HandRun.weight (F := Ideal) q sc = Cert.KernelIdeal.Hand.weight (F := Ideal) q sc := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HandRun.run (F := Ideal) m ρ)

/-- Both runs end at the specification of their arguments; the arguments agree and the weight is one function. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2,
    Cert.ReferenceIdeal.HandValue.result_eq, weight_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
